-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536x64 : Shape := ⟨2, ![65536, 64]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S65536x64 : S_.BroadcastsInDim S65536x64 (![] : Fin 0 → Fin S65536x64.rank)
  reducesTo_S65536x64_S_d0_1 : S65536x64.ReducesTo [0, 1] S_

variable [Facts]

def fn {F : FTy → Type} [FloatOps F] (main_arg0 : FVec F S65536x512 .f32) (main_arg1 : FVec F S65536x64 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x64 .f32 := Host.absf main_arg1
  let main_cst_0 : FVec F S_ .f32 := constant S_ .f32 0x7F800000#32
  let main_v5 : FVec F S65536x64 .f32 := broadcastInDim S65536x64 ![] bcast_S_S65536x64 main_cst_0
  let main_v6 : IVec S65536x64 1 := cmpf .olt main_v4 main_v5
  let main_c_1 : IVec S_ 1 := constantI S_ 1 1#1
  let main_v7 : IVec S_ 1 := (fun x v => Host.reduce IntOp.andi x v reducesTo_S65536x64_S_d0_1 h_S_) main_v6 main_c_1
  let main_v8 : IVec S_ 1 := andi main_v3 main_v7
  main_v8
-- ==== Kernel.lean ====
abbrev S65536x512 : Shape := ⟨2, ![65536, 512]⟩
abbrev S65536x64 : Shape := ⟨2, ![65536, 64]⟩
abbrev S64x512 : Shape := ⟨2, ![64, 512]⟩
abbrev S1x1 : Shape := ⟨2, ![1, 1]⟩
abbrev S2048x512 : Shape := ⟨2, ![2048, 512]⟩
abbrev S2048x64 : Shape := ⟨2, ![2048, 64]⟩
abbrev S1x2048x512 : Shape := ⟨3, ![1, 2048, 512]⟩
abbrev S1 : Shape := ⟨1, ![1]⟩
abbrev S1x1x1 : Shape := ⟨3, ![1, 1, 1]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S65536x512, .f32⟩
  | .hbm, ⟨1, _⟩ => ⟨S65536x64, .f32⟩
  | .hbm, ⟨2, _⟩ => ⟨S64x512, .f32⟩
  | .hbm, ⟨3, _⟩ => ⟨S1x1, .f32⟩
  | .hbm, ⟨4, _⟩ => ⟨S_, .f32⟩
  | .hbm, ⟨5, _⟩ => ⟨S64x512, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x64, .f32⟩
  | .local _ .vmem, ⟨3, _⟩ => ⟨S2048x64, .f32⟩
  | .local _ .vmem, ⟨4, _⟩ => ⟨S64x512, .f32⟩
  | .local _ .vmem, ⟨5, _⟩ => ⟨S1x1, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S64x512_S64x512_0_0 : ∀ a, (![0, 0] : Fin 2 → Nat) a + S64x512.size a ≤ S64x512.size a
  h_S64x512 : 0 < S64x512.numel
  inb_S1x1_S1x1_0_0 : ∀ a, (![0, 0] : Fin 2 → Nat) a + S1x1.size a ≤ S1x1.size a
  h_S1x1 : 0 < S1x1.numel
  inb_S2048x512_S2048x512_0_0 : ∀ a, (![0, 0] : Fin 2 → Nat) a + S2048x512.size a ≤ S2048x512.size a
  h_S2048x512 : 0 < S2048x512.numel
  inb_S2048x64_S2048x64_0_0 : ∀ a, (![0, 0] : Fin 2 → Nat) a + S2048x64.size a ≤ S2048x64.size a
  h_S2048x64 : 0 < S2048x64.numel
  shapeCasts_S1x1_S1x1 : S1x1.ShapeCasts S1x1
  shapeCasts_S2048x512_S1x2048x512 : S2048x512.ShapeCasts S1x2048x512
  reduces_S1x2048x512_S1 : S1x2048x512.Reduces [1, 2] S1
  shapeCasts_S1_S1x1x1 : S1.ShapeCasts S1x1x1
  inpos_S1x1x1_p0_0_0 : ∀ a, (![0, 0, 0] : Fin 3 → Nat) a < S1x1x1.size a
  bitsLt_bf16_f32 : FTy.bits .bf16 < FTy.bits .f32
  shapeCasts_S64x512_S64x512 : S64x512.ShapeCasts S64x512
  shapeCasts_S1x1_S_ : S1x1.ShapeCasts S_
  reducesTo_S64x512_S_d0_1 : S64x512.ReducesTo [0, 1] S_
  h_S_ : 0 < S_.numel
  dot_S2048x64_S2048x512_S64x512_0_0_1_1_n_n_wf : DotDims.WF S2048x64 S2048x512 S64x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S65536x64.size a
  hwx0_1 : ∀ i : grid0.Coords, EltTy.bits .f32 = 32 ∨ (Rect.block (s := S65536x64) S2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x512.size a
  hwx0_2 : ∀ i : grid0.Coords, EltTy.bits .f32 = 32 ∨ (Rect.block (s := S64x512) S64x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S2048x64_S2048x512_S64x512_0_0_1_1_n_n : DotDims S2048x64 S2048x512 S64x512 where
  lhsContracting := [0]
  rhsContracting := [0]
  lhsNonContracting := [1]
  rhsNonContracting := [1]
  lhsBatch := []
  rhsBatch := []
  wf := dot_S2048x64_S2048x512_S64x512_0_0_1_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S64x512.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x512 : Shape := ⟨2, ![65536, 512]⟩
abbrev S65536x64 : Shape := ⟨2, ![65536, 64]⟩
abbrev S_ : Shape := ⟨0, ![]⟩
abbrev S64x65536 : Shape := ⟨2, ![64, 65536]⟩
abbrev S64x512 : Shape := ⟨2, ![64, 512]⟩

abbrev nBuf : Space → Nat
  | .hbm => 11
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x64, .f32⟩
  | .hbm, ⟨2, _⟩ => ⟨S65536x512, .f32⟩
  | .hbm, ⟨3, _⟩ => ⟨S_, .f32⟩
  | .hbm, ⟨4, _⟩ => ⟨S_, .f32⟩
  | .hbm, ⟨5, _⟩ => ⟨S64x65536, .f32⟩
  | .hbm, ⟨6, _⟩ => ⟨S64x512, .f32⟩
  | .hbm, ⟨7, _⟩ => ⟨S64x512, .f32⟩
  | .hbm, ⟨8, _⟩ => ⟨S_, .f32⟩
  | .hbm, ⟨9, _⟩ => ⟨S_, .f32⟩
  | .hbm, ⟨10, _⟩ => ⟨S_, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  reducesTo_S65536x512_S_d0_1 : S65536x512.ReducesTo [0, 1] S_
  h_S_ : 0 < S_.numel
  transposes_S65536x64_S64x65536_1_0 : S65536x64.Transposes [1, 0] S64x65536
  reducesTo_S64x512_S_d0_1 : S64x512.ReducesTo [0, 1] S_
  dot_S64x65536_S65536x512_S64x512_1_0_0_1_n_n_wf : DotDims.WF S64x65536 S65536x512 S64x512 [1] [0] [0] [1] [] []

variable [Facts₀]

def dot_S64x65536_S65536x512_S64x512_1_0_0_1_n_n : DotDims S64x65536 S65536x512 S64x512 where
  lhsContracting := [1]
  rhsContracting := [0]
  lhsNonContracting := [0]
  rhsNonContracting := [1]
  lhsBatch := []
  rhsBatch := []
  wf := dot_S64x65536_S65536x512_S64x512_1_0_0_1_n_n_wf

class Facts : Prop extends Facts₀ where

variable [Facts]
-- ==== Proof.KernelPieces.lean ====
/-
  What one run of the kernel body leaves in its two output blocks, as values of what it loaded.
  The body keeps two accumulators in its output blocks: a 64 x 512 block (the projection Fᵀ·h so far) and a 1 x 1
  block (the sum of squares of h so far). At every grid point it loads the point's 2048-row tiles of h and F, adds
  the tile's sum of squares to the 1 x 1 block and the tile's product Fᵀ·h to the 64 x 512 block. At the first grid
  point it first overwrites both blocks with zeros, so there the update reads back the zeros it has just stored; at
  every later point it reads what the point before left. Stated for every float instance: each result is the body's
  own arithmetic applied to the tiles and to the accumulator's previous contents (the zero block at the first point).
-/
import proofs.«143955_j67181878444634_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A later grid point: the projection block ends at its previous contents plus the tile's product. -/
theorem proj_later (c : Dev nD) (i : grid0.Coords) (a1 : Memref sig .tc .vmem S2048x512 .f32) (h1 : a1.IsWhole)
    (a2 : Memref sig .tc .vmem S2048x64 .f32) (h2 : a2.IsWhole) (a3 : Memref sig .tc .vmem S64x512 .f32) (h3 : a3.IsWhole)
    (a4 : Memref sig .tc .vmem S1x1 .f32) (h4 : a4.IsWhole) (hc : ¬cond0_0 i)
    (x0 : Vec F S2048x512 .f32) (x1 : Vec F S2048x64 .f32) (xo2 : Vec F S64x512 .f32) (xo3 : Vec F S1x1 .f32) :
    out0_B_2 c i a1 h1 a2 h2 a3 h3 a4 h4 hc x0 x1 xo2 xo3 = k0_pay4 x0 x1 xo2 := by
  unfold out0_B_2
  rw [View.read_writes_eq_canon _ _ _ (cover0_B_2 c i a1 h1 a2 h2 a3 h3 a4 h4 hc x0 x1 xo2 xo3)]
  unfold kernelRun0_B
  dsimp only
  sl_unfold_words
  rw [View.canon_unit_zero hz]
  simp only [View.readAt_eq_ld, h1.read_unread, h2.read_unread, h3.read_unread, h4.read_unread,
    View.ld_unit_zero (S := S2048x512) hz, View.ld_unit_zero (S := S2048x64) hz, View.ld_unit_zero (S := S64x512) hz,
    View.ld_unit_zero (S := S1x1) hz]

/-- A later grid point: the sum-of-squares block ends at its previous contents plus the tile's sum of squares. -/
theorem sq_later (c : Dev nD) (i : grid0.Coords) (a1 : Memref sig .tc .vmem S2048x512 .f32) (h1 : a1.IsWhole)
    (a2 : Memref sig .tc .vmem S2048x64 .f32) (h2 : a2.IsWhole) (a3 : Memref sig .tc .vmem S64x512 .f32) (h3 : a3.IsWhole)
    (a4 : Memref sig .tc .vmem S1x1 .f32) (h4 : a4.IsWhole) (hc : ¬cond0_0 i)
    (x0 : Vec F S2048x512 .f32) (x1 : Vec F S2048x64 .f32) (xo2 : Vec F S64x512 .f32) (xo3 : Vec F S1x1 .f32) :
    out0_B_3 c i a1 h1 a2 h2 a3 h3 a4 h4 hc x0 x1 xo2 xo3 = k0_pay3 x0 xo3 := by
  unfold out0_B_3
  rw [View.read_writes_eq_canon _ _ _ (cover0_B_3 c i a1 h1 a2 h2 a3 h3 a4 h4 hc x0 x1 xo2 xo3)]
  unfold kernelRun0_B
  dsimp only
  sl_unfold_words
  rw [View.canon_unit_zero hz]
  simp only [View.readAt_eq_ld, h1.read_unread, h2.read_unread, h3.read_unread, h4.read_unread,
    View.ld_unit_zero (S := S2048x512) hz, View.ld_unit_zero (S := S2048x64) hz, View.ld_unit_zero (S := S64x512) hz,
    View.ld_unit_zero (S := S1x1) hz]

/-- The first grid point: the projection block is zeroed, read back, and ends at zero plus the tile's product. -/
theorem proj_first (c : Dev nD) (i : grid0.Coords) (a1 : Memref sig .tc .vmem S2048x512 .f32) (h1 : a1.IsWhole)
    (a2 : Memref sig .tc .vmem S2048x64 .f32) (h2 : a2.IsWhole) (a3 : Memref sig .tc .vmem S64x512 .f32) (h3 : a3.IsWhole)
    (a4 : Memref sig .tc .vmem S1x1 .f32) (h4 : a4.IsWhole) (hc : cond0_0 i)
    (x0 : Vec F S2048x512 .f32) (x1 : Vec F S2048x64 .f32) :
    out0_A_2 c i a1 h1 a2 h2 a3 h3 a4 h4 hc x0 x1 = k0_pay4 x0 x1 (k0_pay1 (F := F)) := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S64x512) hz]
  simp only [View.readAt_eq_ld, h1.read_unread, h2.read_unread, h3.read_unread, h4.read_unread,
    View.ld_unit_zero (S := S2048x512) hz, View.ld_unit_zero (S := S2048x64) hz, View.ld_unit_zero (S := S64x512) hz,
    View.ld_unit_zero (S := S1x1) hz, View.readCov_unit_zero (S := S64x512) _ hz, View.readCov_unit_zero (S := S1x1) _ hz]

/-- The first grid point: the sum-of-squares block is zeroed, read back, and ends at zero plus the tile's sum of squares. -/
theorem sq_first (c : Dev nD) (i : grid0.Coords) (a1 : Memref sig .tc .vmem S2048x512 .f32) (h1 : a1.IsWhole)
    (a2 : Memref sig .tc .vmem S2048x64 .f32) (h2 : a2.IsWhole) (a3 : Memref sig .tc .vmem S64x512 .f32) (h3 : a3.IsWhole)
    (a4 : Memref sig .tc .vmem S1x1 .f32) (h4 : a4.IsWhole) (hc : cond0_0 i)
    (x0 : Vec F S2048x512 .f32) (x1 : Vec F S2048x64 .f32) :
    out0_A_3 c i a1 h1 a2 h2 a3 h3 a4 h4 hc x0 x1 = k0_pay3 x0 (k0_pay2 (F := F)) := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x1) hz]
  simp only [View.readAt_eq_ld, h1.read_unread, h2.read_unread, h3.read_unread, h4.read_unread,
    View.ld_unit_zero (S := S2048x512) hz, View.ld_unit_zero (S := S2048x64) hz, View.ld_unit_zero (S := S64x512) hz,
    View.ld_unit_zero (S := S1x1) hz, View.readCov_unit_zero (S := S64x512) _ hz, View.readCov_unit_zero (S := S1x1) _ hz]

end Cert.KernelIdeal.Pieces

end
-- ==== Proof.TileSums.lean ====
/-
  Sums taken tile by tile. The 65536 rows of the two argument arrays are read as 32 consecutive tiles of 2048
  rows. In any commutative monoid a sum over all rows is the sum over the tiles of each tile's sum over its rows,
  and a running total that starts from zero plus the first tile's term and adds one more tile's term per step is,
  after the last step, the sum of all the tiles' terms. Nothing here needs finiteness: only that addition is
  commutative and associative, which holds on the extended reals.
-/
import Idealize.ShloMosaic.Lib.ValueIdx
import Mathlib.Algebra.BigOperators.Fin
import Mathlib.Logic.Equiv.Fin.Basic

open scoped BigOperators

namespace Cert.TileSums

/-- Row `r` of tile `t` as a row of the whole array: row `2048 t + r`. -/
def rowOf (t : Fin 32) (r : Fin 2048) : Fin 65536 :=
  ⟨2048 * t.val + r.val, by have := t.isLt; have := r.isLt; omega⟩

theorem rowOf_val (t : Fin 32) (r : Fin 2048) : (rowOf t r).val = 2048 * t.val + r.val := rfl

/-- A sum over all 65536 rows is the sum over the 32 tiles of the sum over each tile's 2048 rows. -/
theorem sum_rows_by_tile {M : Type*} [AddCommMonoid M] (g : Fin 65536 → M) :
    ∑ n, g n = ∑ t : Fin 32, ∑ r : Fin 2048, g (rowOf t r) := by
  rw [← Equiv.sum_comp (finProdFinEquiv (m := 32) (n := 2048)) g, Fintype.sum_prod_type]
  refine Finset.sum_congr rfl fun t _ => Finset.sum_congr rfl fun r _ => congrArg g (Fin.ext ?_)
  show r.val + 2048 * t.val = 2048 * t.val + r.val
  omega

/-- The running total after step `n` of `N` terms: zero plus the first term, then one more term per step. -/
def runTotal {M : Type*} [AddCommMonoid M] {N : ℕ} (P : Fin N → M) : (n : ℕ) → n < N → M
  | 0, h => 0 + P ⟨0, h⟩
  | n + 1, h => runTotal P n (Nat.lt_of_succ_lt h) + P ⟨n + 1, h⟩

/-- The running total after step `n` is the sum of the first `n + 1` terms. -/
theorem runTotal_eq_sum {M : Type*} [AddCommMonoid M] {N : ℕ} (P : Fin N → M) :
    ∀ (n : ℕ) (h : n < N), runTotal P n h = ∑ t : Fin (n + 1), P ⟨t.val, Nat.lt_of_lt_of_le t.isLt h⟩
  | 0, h => by
    rw [runTotal, Fin.sum_univ_one, zero_add]
    rfl
  | n + 1, h => by
    rw [runTotal, runTotal_eq_sum P n]
    exact (Fin.sum_univ_castSucc (fun t : Fin (n + 2) => P ⟨t.val, Nat.lt_of_lt_of_le t.isLt h⟩)).symm

end Cert.TileSums
-- ==== Proof.BlockReads.lean ====
/-
  A staged tile read at an entry is the argument array at the tile's row of the whole array.
  The windows over h and F cut the 65536 rows into 32 tiles of 2048 rows, tile t holding rows 2048 t .. 2048 t + 2047,
  every column kept: entry (r, d) of the tile of h at grid point t is h[2048 t + r, d], and entry (r, k) of the tile of
  F is F[2048 t + r, k].
-/
import proofs.«143955_j67181878444634_1_alg».proof.Proof.Gen.KernelIdeal.Frame
import proofs.«143955_j67181878444634_1_alg».proof.Proof.TileSums
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Tiles

open Cert.KernelIdeal Cert.KernelIdeal.Gen Cert.TileSums

variable {F : FTy → Type} [FloatOps F]
variable (m : (ℓ : Loc nD τ sig) → Buf (Elt F) ℓ)

/-- The argument arrays as the kernel region finds them. -/
abbrev hArr (c : Dev nD) : Vec F S65536x512 .f32 := V m c main_arg0
abbrev fArr (c : Dev nD) : Vec F S65536x64 .f32 := V m c main_arg1
/-- The tiles of h and of F staged at grid point `t`. -/
abbrev hTile (c : Dev nD) (t : Fin cfg0.N) : Vec F S2048x512 .f32 := iblk m c 0 t
abbrev fTile (c : Dev nD) (t : Fin cfg0.N) : Vec F S2048x64 .f32 := iblk m c 1 t

/-- The block index of both input windows at grid point `t` is `(t, 0)`. -/
theorem idx_h : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_f : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Entry `(r, d)` of the tile of h at grid point `t` is `h[2048 t + r, d]`. -/
theorem hTile_apply (c : Dev nD) (t : Fin cfg0.N) (ht : t.val < 32) (r : Fin 2048) (d : Fin 512) :
    hTile m c t (ix2 r d) = hArr m c (ix2 (rowOf ⟨t.val, ht⟩ r) d) := by
  show ((cfg0.win 0).blk t).view.read (Elt F) (V m c (Pipeline.arrRef spec0 0)) (ix2 r d) = _
  rw [View.read_apply]
  show V m c main_arg0 _ = V m c main_arg0 _
  refine congrArg (V m c main_arg0) (funext fun a => Fin.ext ?_)
  match a with
  | ⟨0, _⟩ =>
    show win0_0.index t 0 * 2048 + 1 * r.val = 2048 * t.val + r.val
    rw [(idx_h t).1]; omega
  | ⟨1, _⟩ =>
    show win0_0.index t 1 * 512 + 1 * d.val = d.val
    rw [(idx_h t).2]; omega

/-- Entry `(r, k)` of the tile of F at grid point `t` is `F[2048 t + r, k]`. -/
theorem fTile_apply (c : Dev nD) (t : Fin cfg0.N) (ht : t.val < 32) (r : Fin 2048) (k : Fin 64) :
    fTile m c t (ix2 r k) = fArr m c (ix2 (rowOf ⟨t.val, ht⟩ r) k) := by
  show ((cfg0.win 1).blk t).view.read (Elt F) (V m c (Pipeline.arrRef spec0 1)) (ix2 r k) = _
  rw [View.read_apply]
  show V m c main_arg1 _ = V m c main_arg1 _
  refine congrArg (V m c main_arg1) (funext fun a => Fin.ext ?_)
  match a with
  | ⟨0, _⟩ =>
    show win0_1.index t 0 * 2048 + 1 * r.val = 2048 * t.val + r.val
    rw [(idx_f t).1]; omega
  | ⟨1, _⟩ =>
    show win0_1.index t 1 * 64 + 1 * k.val = k.val
    rw [(idx_f t).2]; omega

end Cert.KernelIdeal.Tiles

end
-- ==== Proof.KernelAcc.lean ====
/-
  What the two accumulators hold after each grid point, for every float instance.
  The frame's record of the output blocks after grid point n is, by the four piece values, the body's two updates
  applied to the point's tiles and to what the point before left, starting from the zero blocks at the first point.
-/
import proofs.«143955_j67181878444634_1_alg».proof.Proof.KernelPieces
import proofs.«143955_j67181878444634_1_alg».proof.Proof.BlockReads

noncomputable section

open Idealize.ShloMosaic Idealize.ShloMosaic.TcCoe Idealize.SL.Sem

namespace Cert.KernelIdeal.Totals

open Cert.KernelIdeal Cert.KernelIdeal.Gen Cert.KernelIdeal.Tiles Cert.KernelIdeal.Pieces

section AnyInstance

variable {F : FTy → Type} [FloatOps F]
variable (m : (ℓ : Loc nD τ sig) → Buf (Elt F) ℓ)

/-- The accumulators after grid point `n`: the body's two updates applied to the point's tiles and to what the
    point before left, from the zero blocks at the first point. -/
def acc (c : Dev nD) : (n : ℕ) → n < cfg0.N → Vec F S64x512 .f32 × Vec F S1x1 .f32
  | 0, h => (k0_pay4 (hTile m c ⟨0, h⟩) (fTile m c ⟨0, h⟩) (k0_pay1 (F := F)), k0_pay3 (hTile m c ⟨0, h⟩) (k0_pay2 (F := F)))
  | n + 1, h => (k0_pay4 (hTile m c ⟨n + 1, h⟩) (fTile m c ⟨n + 1, h⟩) (acc c n (Nat.lt_of_succ_lt h)).1,
      k0_pay3 (hTile m c ⟨n + 1, h⟩) (acc c n (Nat.lt_of_succ_lt h)).2)

/-- The frame's record of the output blocks after each grid point is that running pair. -/
theorem outsAt_eq (c : Dev nD) : ∀ (n : ℕ) (h : n < cfg0.N), outsAt0 m c n h = acc m c n h
  | 0, h => by
    rw [outsAt0_A m c ⟨0, h⟩ rfl, proj_first, sq_first]
    rfl
  | n + 1, h => by
    have hN : cfg0.N = 32 := N_0
    have hB : ¬(⟨n + 1, h⟩ : Fin cfg0.N).val % 32 = 0 := by dsimp only; omega
    rw [outsAt0_B m c ⟨n + 1, h⟩ hB, proj_later, sq_later]
    show (k0_pay4 _ _ (outsAt0 m c n _).1, k0_pay3 _ (outsAt0 m c n _).2) = _
    rw [outsAt_eq c n]
    rfl

end AnyInstance

/-- The grid has 32 points; the last is point 31. -/
theorem last_lt : 31 < cfg0.N := by rw [show cfg0.N = 32 from N_0]; decide

end Cert.KernelIdeal.Totals

end
-- ==== Proof.KernelRun.lean ====
/-
  The idealized kernel's run, read back: its result and its unchanged arguments.
  Each of the two output windows has one block, the whole of its array, and is written back once, after the last
  grid point; so when the region ends the 64 x 512 result array holds the projection accumulator after the last
  point and the 1 x 1 result array the sum-of-squares accumulator after the last point. The host operations after the
  region then reshape the 1 x 1 array to a scalar, square the 64 x 512 array entry by entry, sum it from the zero
  word, and subtract: the program's result is that expression of the two final accumulators.
-/
import proofs.«143955_j67181878444634_1_alg».proof.Proof.KernelAcc
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.KernelIdeal.Totals

variable {F : FTy → Type} [FloatOps F]
variable (m : (ℓ : Loc nD τ sig) → Buf (Elt F) ℓ) (ρ : Dev nD → PrngReg)

/-- The last grid point. -/
def tLast : Fin cfg0.N := ⟨31, last_lt⟩

/-- The two result arrays' final contents: the accumulators after the last grid point. -/
abbrev projArr (c : Dev nD) : Buf (Elt F) ((c : Thread nD τ).loc main_v0_0) := (acc m c 31 last_lt).1
abbrev sqArr (c : Dev nD) : Buf (Elt F) ((c : Thread nD τ).loc main_v0_1) := (acc m c 31 last_lt).2

/-- The one write-back of the projection window, after the last point, writes the accumulator: its block is the array. -/
theorem flushed_proj (c : Dev nD) (t : Fin cfg0.N) (hf : (cfg0.win 2).flush t = true) :
    (dats m 0 c).flushed 2 t = ((cfg0.win 2).blk t).view.read (Elt F) (projArr m c) := by
  have hN : cfg0.N = 32 := N_0
  have h31 : t.val = 31 := by have := (flush0_2 t).mp hf; have := t.isLt; omega
  obtain rfl : t = tLast := Fin.ext h31
  show (cfg0.win 2).cut (grid0.coords tLast) ((dats m 0 c).after 2 tLast) = _
  rw [after0_2, outsAt_eq]
  have hz' : (fun a => win0_2.index tLast a * main_v0_0.ty.shape.size a) = fun _ => 0 := funext fun a => by fin_cases a <;> decide +kernel
  exact (Memref.read_access_unit_zero (Elt F) main_v0_0 hz' (fun a => by rw [congrFun hz' a]; simp) (projArr m c)).symm

/-- The same for the sum-of-squares window. -/
theorem flushed_sq (c : Dev nD) (t : Fin cfg0.N) (hf : (cfg0.win 3).flush t = true) :
    (dats m 0 c).flushed 3 t = ((cfg0.win 3).blk t).view.read (Elt F) (sqArr m c) := by
  have hN : cfg0.N = 32 := N_0
  have h31 : t.val = 31 := by have := (flush0_3 t).mp hf; have := t.isLt; omega
  obtain rfl : t = tLast := Fin.ext h31
  show (cfg0.win 3).cut (grid0.coords tLast) ((dats m 0 c).after 3 tLast) = _
  rw [after0_3, outsAt_eq]
  have hz' : (fun a => win0_3.index tLast a * main_v0_1.ty.shape.size a) = fun _ => 0 := funext fun a => by fin_cases a <;> decide +kernel
  exact (Memref.read_access_unit_zero (Elt F) main_v0_1 hz' (fun a => by rw [congrFun hz' a]; simp) (sqArr m c)).symm

/-- So the 64 x 512 result array ends holding the projection accumulator after the last point. -/
theorem final_proj (c : Dev nD) : (dats m 0 c).arrAt 2 cfg0.N = projArr m c :=
  (dats m 0 c).arrAt_eq_of_cover 2 (projArr m c) (flushed_proj m c) fun i =>
    ⟨tLast, (flush0_2 tLast).mpr rfl, by
      show i ∈ ((View.whole main_v0_0).slice (win0_2.rect tLast)).set
      rw [View.set_slice_whole, Rect.mem_set_unit]
      intro a
      have h0 : (i 0 : Nat) < 64 := (i 0).isLt
      have h1 : (i 1 : Nat) < 512 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 64 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 512 from by decide +kernel]; omega⟩

/-- And the 1 x 1 result array the sum-of-squares accumulator after the last point. -/
theorem final_sq (c : Dev nD) : (dats m 0 c).arrAt 3 cfg0.N = sqArr m c :=
  (dats m 0 c).arrAt_eq_of_cover 3 (sqArr m c) (flushed_sq m c) fun i =>
    ⟨tLast, (flush0_3 tLast).mpr rfl, by
      show i ∈ ((View.whole main_v0_1).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-- The host operations after the region, as one function of the two result arrays. -/
def tail (g : Vec F S64x512 .f32) (s : Vec F S1x1 .f32) : Vec F S_ .f32 :=
  subf (shapeCast S_ s shapeCasts_S1x1_S_)
    (Host.reduceAdd (mulf g g) (constant (F := F) S_ .f32 0x00000000#32) reducesTo_S64x512_S_d0_1 h_S_)

/-- The program's result buffer after the host operations that follow the region. -/
theorem tail_value (c : Dev nD) :
    Pipeline.afterTail₀ cfgs (dats m) 0 (V0 m) [hostOps1] c main_v4 = tail (projArr m c) (sqArr m c) := by
  unfold Pipeline.afterTail₀
  show StableHlo.after hostOps1 _ (Proc.devRef .tc main_v4) = _
  after_results
  have e2 : Pipeline.withArrays (cfgs 0).spec c (V0 m c) (fun w => (dats m 0 c).arrAt w (cfgs 0).N) (Proc.devRef .tc main_v0_0)
      = projArr m c := (Pipeline.withArrays_arr spec0 launch0.win.arr_inj c _ _ 2).trans (final_proj m c)
  have e3 : Pipeline.withArrays (cfgs 0).spec c (V0 m c) (fun w => (dats m 0 c).arrAt w (cfgs 0).N) (Proc.devRef .tc main_v0_1)
      = sqArr m c := (Pipeline.withArrays_arr spec0 launch0.win.arr_inj c _ _ 3).trans (final_sq m c)
  rw [e2, e3]
  rfl

/-- The result buffer is unscoped and is no window's array, so the region leaves it to the host operations. -/
theorem result_bypasses : main_v4 ∈ Pipeline.restRefs sig (cfgs 0).spec :=
  Pipeline.mem_restRefs_of main_v4 rfl (fun w => by fin_cases w <;> decide)

/-- The run, read: the result at the host tail of the two final accumulators, the arguments unchanged. -/
theorem run : θ_run defs (onTc (τ := τ) (main (F := F))) ⟨m, fun _ => 0, ρ⟩ fun r => ∀ c : Dev nD,
      r.2.mem ((c : Thread nD τ).loc main_v4) = tail (projArr m c) (sqArr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v4 result_bypasses).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Run

end
-- ==== Proof.KernelArith.lean ====
/-
  The kernel body's arithmetic at the ideal instance, entry by entry.
  The two zero blocks hold the extended real 0. The sum-of-squares update leaves, at its one entry, the previous
  value plus the sum over the tile's rows and columns of the squared entries: the lane reduction over both tile axes
  is the total sum, and the reshapes around it move no value. The projection update leaves, at entry (k, d), the
  previous value plus the sum over the tile's rows r of Ftile[r, k]·htile[r, d]: the matrix unit contracts the row
  axis of both tiles, the narrowing of both operands is the identity at the ideal instance, and its accumulator
  operand is the zero block.
-/
import proofs.«143955_j67181878444634_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Arith

open Cert.KernelIdeal Cert.KernelIdeal.Gen

/-- The zero block the projection accumulator is reset to. -/
theorem zero_proj (j : S64x512.Idx) : k0_pay1 (F := Ideal) j = 0 := by
  show Ideal.ofBits .f32 0x00000000#32 = 0
  exact Ideal.ofBits_zero_f32

/-- The zero block the sum-of-squares accumulator is reset to. -/
theorem zero_sq (j : S1x1.Idx) : k0_pay2 (F := Ideal) j = 0 := by
  show Ideal.ofBits .f32 0x00000000#32 = 0
  exact Ideal.ofBits_zero_f32

/-- The kernel's lane reduction over both axes of a tile lifted to 1 x 2048 x 512 is the total sum over the tile's rows
    and columns. -/
theorem lane_total (y : FVec Ideal S2048x512 .f32) (hφ : FKind.Formats .f32)
    (hacc : (0x00000000#32 : BitVec 32) = FKind.add.neutral .f32 hφ) (j : S1.Idx) :
    multiReduction (F := Ideal) .add [1, 2] S1 (shapeCast S1x2048x512 y shapeCasts_S2048x512_S1x2048x512) 0x00000000#32
        reduces_S1x2048x512_S1 hφ hacc j
      = ∑ r : Fin 2048, ∑ d : Fin 512, y (ix2 r d) := by
  refine (Ideal.multiReduction_add_total _ 0x00000000#32 reduces_S1x2048x512_S1 (fun b => by fin_cases b; rfl) hφ hacc j).trans ?_
  show ∑ i : S1x2048x512.Idx, y (Shape.reshapeEquiv shapeCasts_S2048x512_S1x2048x512 i) = _
  rw [Equiv.sum_comp (Shape.reshapeEquiv shapeCasts_S2048x512_S1x2048x512) y, sum_idx2]

/-- The sum-of-squares update: the previous value plus the tile's sum of squares. -/
theorem sq_update (x0 : Vec Ideal S2048x512 .f32) (xo : Vec Ideal S1x1 .f32) (j : S1x1.Idx) :
    k0_pay3 (F := Ideal) x0 xo j = xo j + ∑ r : Fin 2048, ∑ d : Fin 512, x0 (ix2 r d) * x0 (ix2 r d) := by
  have key : ∀ (R : FVec Ideal S1 .f32) (T : EReal), (∀ i, R i = T) →
      addf (F := Ideal) (shapeCast S1x1 xo shapeCasts_S1x1_S1x1)
        (broadcast S1x1 (extractAt ![0, 0, 0] (shapeCast S1x1x1 R shapeCasts_S1_S1x1x1) inpos_S1x1x1_p0_0_0)) j = xo j + T := by
    intro R T hR
    rw [shapeCast_self]
    exact congrArg (xo j + ·) (hR _)
  refine key _ _ fun i => ?_
  exact (lane_total (mulf x0 x0 : FVec Ideal S2048x512 .f32) _ _ i).trans
    (Finset.sum_congr rfl fun r _ => Finset.sum_congr rfl fun d _ => rfl)

theorem lhs_tile_0 (i : S64x512.Idx) (q : dot_S2048x64_S2048x512_S64x512_0_0_1_1_n_n.contr.Idx) :
    (dot_S2048x64_S2048x512_S64x512_0_0_1_1_n_n.lhsIdx i q 0).val = (q ⟨0, by decide⟩).val :=
  dot_S2048x64_S2048x512_S64x512_0_0_1_1_n_n.lhsIdx_val_of_single rfl i q
theorem lhs_tile_1 (i : S64x512.Idx) (q : dot_S2048x64_S2048x512_S64x512_0_0_1_1_n_n.contr.Idx) :
    (dot_S2048x64_S2048x512_S64x512_0_0_1_1_n_n.lhsIdx i q 1).val = (i 0).val := by
  unfold DotDims.lhsIdx
  rw [dif_neg (show ¬(1 : Fin S2048x64.rank) ∈ dot_S2048x64_S2048x512_S64x512_0_0_1_1_n_n.lhsBatch by decide), dif_pos (show (1 : Fin S2048x64.rank) ∈ dot_S2048x64_S2048x512_S64x512_0_0_1_1_n_n.lhsNonContracting by decide)]
  rfl
theorem rhs_tile_0 (i : S64x512.Idx) (q : dot_S2048x64_S2048x512_S64x512_0_0_1_1_n_n.contr.Idx) :
    (dot_S2048x64_S2048x512_S64x512_0_0_1_1_n_n.rhsIdx i q 0).val = (q ⟨0, by decide⟩).val :=
  dot_S2048x64_S2048x512_S64x512_0_0_1_1_n_n.rhsIdx_val_of_single rfl i q
theorem rhs_tile_1 (i : S64x512.Idx) (q : dot_S2048x64_S2048x512_S64x512_0_0_1_1_n_n.contr.Idx) :
    (dot_S2048x64_S2048x512_S64x512_0_0_1_1_n_n.rhsIdx i q 1).val = (i 1).val := by
  unfold DotDims.rhsIdx
  rw [dif_neg (show ¬(1 : Fin S2048x512.rank) ∈ dot_S2048x64_S2048x512_S64x512_0_0_1_1_n_n.rhsBatch by decide), dif_pos (show (1 : Fin S2048x512.rank) ∈ dot_S2048x64_S2048x512_S64x512_0_0_1_1_n_n.rhsNonContracting by decide)]
  rfl

/-- The projection update: the previous value plus the tile's product, a sum over the tile's rows. -/
theorem proj_update (x0 : Vec Ideal S2048x512 .f32) (x1 : Vec Ideal S2048x64 .f32) (xo : Vec Ideal S64x512 .f32) (j : S64x512.Idx) :
    k0_pay4 (F := Ideal) x0 x1 xo j = xo j + ∑ r : Fin 2048, x1 (ix2 r (j 0)) * x0 (ix2 r (j 1)) := by
  unfold k0_pay4
  show (shapeCast S64x512 xo shapeCasts_S64x512_S64x512) j
      + FloatOps.matmul (F := Ideal) dot_S2048x64_S2048x512_S64x512_0_0_1_1_n_n none (truncf .bf16 x1 bitsLt_bf16_f32) (truncf .bf16 x0 bitsLt_bf16_f32)
          (constant S64x512 .f32 0x00000000#32) j = _
  rw [shapeCast_self, Ideal.matmul_constant_zero_apply,
    ← Equiv.sum_comp (ValueIdx.contrEquiv1 dot_S2048x64_S2048x512_S64x512_0_0_1_1_n_n 2048 rfl rfl).symm]
  congr 1
  refine Finset.sum_congr rfl fun r _ => ?_
  have hr := ValueIdx.contrEquiv1_symm_val dot_S2048x64_S2048x512_S64x512_0_0_1_1_n_n 2048 rfl rfl r
  have el : dot_S2048x64_S2048x512_S64x512_0_0_1_1_n_n.lhsIdx j ((ValueIdx.contrEquiv1 dot_S2048x64_S2048x512_S64x512_0_0_1_1_n_n 2048 rfl rfl).symm r) = ix2 r (j 0) := funext fun a => Fin.ext (by
    match a with
    | ⟨0, _⟩ => exact (lhs_tile_0 _ _).trans hr
    | ⟨1, _⟩ => exact lhs_tile_1 _ _)
  have er : dot_S2048x64_S2048x512_S64x512_0_0_1_1_n_n.rhsIdx j ((ValueIdx.contrEquiv1 dot_S2048x64_S2048x512_S64x512_0_0_1_1_n_n 2048 rfl rfl).symm r) = ix2 r (j 1) := funext fun a => Fin.ext (by
    match a with
    | ⟨0, _⟩ => exact (rhs_tile_0 _ _).trans hr
    | ⟨1, _⟩ => exact rhs_tile_1 _ _)
  show x1 (dot_S2048x64_S2048x512_S64x512_0_0_1_1_n_n.lhsIdx j _) * x0 (dot_S2048x64_S2048x512_S64x512_0_0_1_1_n_n.rhsIdx j _) = _
  rw [el, er]
  rfl

end Cert.KernelIdeal.Arith

end
-- ==== Proof.Spec.lean ====
/-
  The number both programs compute, as one expression over the extended reals.
  With h the 65536 x 512 array and F the 65536 x 64 array, the projection is the 64 x 512 matrix
  (Fᵀ·h)[k, d] = ∑ₙ F[n, k]·h[n, d], the sum of squares is ∑ₙ ∑_d h[n, d]², and the result is the sum of squares
  minus the sum over (k, d) of the squared projection entries (the host's sum starts from its zero word). Both
  sums over the rows n can be taken tile by tile: 32 tiles of 2048 consecutive rows.
-/
import proofs.«143955_j67181878444634_1_alg».proof.Proof.TileSums
import Idealize.ShloMosaic.PureOps.Ideal.Laws

noncomputable section

open scoped BigOperators
open Idealize.ShloMosaic Idealize.ShloMosaic.ValueIdx Cert.TileSums

namespace Cert.Spec

abbrev RowsBy512 : Shape := ⟨2, ![65536, 512]⟩
abbrev RowsBy64 : Shape := ⟨2, ![65536, 64]⟩
abbrev ProjShape : Shape := ⟨2, ![64, 512]⟩

/-- Entry `j = (k, d)` of the projection Fᵀ·h. -/
def proj (h : RowsBy512.Idx → EReal) (f : RowsBy64.Idx → EReal) (j : ProjShape.Idx) : EReal :=
  ∑ n : Fin 65536, f (ix2 n (j 0)) * h (ix2 n (j 1))

/-- The sum of the squares of every entry of h. -/
def sumSq (h : RowsBy512.Idx → EReal) : EReal :=
  ∑ n : Fin 65536, ∑ d : Fin 512, h (ix2 n d) * h (ix2 n d)

/-- The result: the sum of squares minus the sum of the squared projection entries. -/
def loss (h : RowsBy512.Idx → EReal) (f : RowsBy64.Idx → EReal) : EReal :=
  sumSq h - (Ideal.ofBits .f32 0x00000000#32 + ∑ j : ProjShape.Idx, proj h f j * proj h f j)

/-- The projection entry, with its sum over the rows taken tile by tile. -/
theorem proj_by_tile (h : RowsBy512.Idx → EReal) (f : RowsBy64.Idx → EReal) (j : ProjShape.Idx) :
    proj h f j = ∑ t : Fin 32, ∑ r : Fin 2048, f (ix2 (rowOf t r) (j 0)) * h (ix2 (rowOf t r) (j 1)) :=
  sum_rows_by_tile fun n => f (ix2 n (j 0)) * h (ix2 n (j 1))

/-- The sum of squares, with its sum over the rows taken tile by tile. -/
theorem sumSq_by_tile (h : RowsBy512.Idx → EReal) :
    sumSq h = ∑ t : Fin 32, ∑ r : Fin 2048, ∑ d : Fin 512, h (ix2 (rowOf t r) d) * h (ix2 (rowOf t r) d) :=
  sum_rows_by_tile fun n => ∑ d : Fin 512, h (ix2 n d) * h (ix2 n d)

end Cert.Spec

end
-- ==== Proof.KernelTotals.lean ====
/-
  After the last grid point the two accumulators hold the projection Fᵀ·h and the sum of squares of h.
  Read entry by entry at the ideal instance, the accumulators after grid point n are a running total: zero plus the
  first n + 1 tiles' terms. So after the last point each holds the sum over all 32 tiles, which is the sum over all
  65536 rows.
-/
import proofs.«143955_j67181878444634_1_alg».proof.Proof.KernelAcc
import proofs.«143955_j67181878444634_1_alg».proof.Proof.KernelArith
import proofs.«143955_j67181878444634_1_alg».proof.Proof.Spec

noncomputable section

open scoped BigOperators
open Idealize.ShloMosaic Idealize.ShloMosaic.TcCoe Idealize.SL.Sem Idealize.ShloMosaic.ValueIdx

namespace Cert.KernelIdeal.Totals

open Cert.KernelIdeal Cert.KernelIdeal.Gen Cert.KernelIdeal.Tiles Cert.KernelIdeal.Pieces Cert.KernelIdeal.Arith Cert.TileSums

variable (m : (ℓ : Loc nD τ sig) → Buf (Elt Ideal) ℓ)

/-- Tile `t`'s term of projection entry `j = (k, d)`: the sum over the tile's rows of Ftile[r, k]·htile[r, d]. -/
def projTerm (c : Dev nD) (j : S64x512.Idx) (t : Fin cfg0.N) : EReal :=
  ∑ r : Fin 2048, fTile m c t (ix2 r (j 0)) * hTile m c t (ix2 r (j 1))

/-- Tile `t`'s term of the sum of squares: the sum over the tile's rows and columns of htile[r, d]². -/
def sqTerm (c : Dev nD) (t : Fin cfg0.N) : EReal :=
  ∑ r : Fin 2048, ∑ d : Fin 512, hTile m c t (ix2 r d) * hTile m c t (ix2 r d)

/-- Entry `j` of the projection accumulator after point `n` is the running total of the tiles' terms. -/
theorem acc_proj (c : Dev nD) (j : S64x512.Idx) : ∀ (n : ℕ) (h : n < cfg0.N),
    (acc m c n h).1 j = runTotal (projTerm m c j) n h
  | 0, h => by
    show k0_pay4 (F := Ideal) (hTile m c ⟨0, h⟩) (fTile m c ⟨0, h⟩) (k0_pay1 (F := Ideal)) j = 0 + projTerm m c j ⟨0, h⟩
    rw [proj_update, zero_proj]
    rfl
  | n + 1, h => by
    show k0_pay4 (F := Ideal) (hTile m c ⟨n + 1, h⟩) (fTile m c ⟨n + 1, h⟩) (acc m c n (Nat.lt_of_succ_lt h)).1 j
      = runTotal (projTerm m c j) n (Nat.lt_of_succ_lt h) + projTerm m c j ⟨n + 1, h⟩
    rw [proj_update, acc_proj c j n]
    rfl

/-- The one entry of the sum-of-squares accumulator after point `n` is the running total of the tiles' terms. -/
theorem acc_sq (c : Dev nD) (j : S1x1.Idx) : ∀ (n : ℕ) (h : n < cfg0.N),
    (acc m c n h).2 j = runTotal (sqTerm m c) n h
  | 0, h => by
    show k0_pay3 (F := Ideal) (hTile m c ⟨0, h⟩) (k0_pay2 (F := Ideal)) j = 0 + sqTerm m c ⟨0, h⟩
    rw [sq_update, zero_sq]
    rfl
  | n + 1, h => by
    show k0_pay3 (F := Ideal) (hTile m c ⟨n + 1, h⟩) (acc m c n (Nat.lt_of_succ_lt h)).2 j
      = runTotal (sqTerm m c) n (Nat.lt_of_succ_lt h) + sqTerm m c ⟨n + 1, h⟩
    rw [sq_update, acc_sq c j n]
    rfl

/-- After the last grid point the projection accumulator holds Fᵀ·h. -/
theorem acc_proj_last (c : Dev nD) (j : S64x512.Idx) :
    (acc m c 31 last_lt).1 j = Cert.Spec.proj (hArr m c) (fArr m c) j := by
  rw [acc_proj, runTotal_eq_sum, Cert.Spec.proj_by_tile]
  refine Finset.sum_congr rfl fun t _ => ?_
  show ∑ r : Fin 2048, fTile m c ⟨t.val, _⟩ (ix2 r (j 0)) * hTile m c ⟨t.val, _⟩ (ix2 r (j 1)) = _
  refine Finset.sum_congr rfl fun r _ => ?_
  exact congrArg₂ (fun a b : EReal => a * b)
    (fTile_apply m c ⟨t.val, Nat.lt_of_lt_of_le t.isLt last_lt⟩ t.isLt r (j 0))
    (hTile_apply m c ⟨t.val, Nat.lt_of_lt_of_le t.isLt last_lt⟩ t.isLt r (j 1))

/-- After the last grid point the sum-of-squares accumulator holds the sum of squares of h. -/
theorem acc_sq_last (c : Dev nD) (j : S1x1.Idx) :
    (acc m c 31 last_lt).2 j = Cert.Spec.sumSq (hArr m c) := by
  rw [acc_sq, runTotal_eq_sum, Cert.Spec.sumSq_by_tile]
  refine Finset.sum_congr rfl fun t _ => ?_
  show ∑ r : Fin 2048, ∑ d : Fin 512, hTile m c ⟨t.val, _⟩ (ix2 r d) * hTile m c ⟨t.val, _⟩ (ix2 r d) = _
  refine Finset.sum_congr rfl fun r _ => Finset.sum_congr rfl fun d _ => ?_
  exact congrArg (fun a : EReal => a * a)
    (hTile_apply m c ⟨t.val, Nat.lt_of_lt_of_le t.isLt last_lt⟩ t.isLt r d)

end Cert.KernelIdeal.Totals

end
-- ==== Proof.KernelValue.lean ====
/-
  The idealized kernel's result, entry by entry at the ideal instance, is the sum of squares of h minus the sum of
  the squared entries of the projection Fᵀ·h.
  After the region the 1 x 1 array holds the sum of squares and the 64 x 512 array the projection (the two
  accumulators after the last grid point); the host operations reshape the first to a scalar, and subtract from it
  the sum, from the zero word, of the second squared entry by entry.
-/
import proofs.«143955_j67181878444634_1_alg».proof.Proof.KernelRun
import proofs.«143955_j67181878444634_1_alg».proof.Proof.KernelTotals

noncomputable section

open scoped BigOperators
open Idealize.ShloMosaic Idealize.ShloMosaic.TcCoe Idealize.SL.Sem Idealize.ShloMosaic.ValueIdx

namespace Cert.KernelIdeal.Run

open Cert.KernelIdeal Cert.KernelIdeal.Gen Cert.KernelIdeal.Tiles Cert.KernelIdeal.Totals

/-- The host operations after the region, applied to a 64 x 512 array that holds the projection and a 1 x 1 array
    that holds the sum of squares, give the result. -/
theorem tail_of_totals (g : Vec Ideal S64x512 .f32) (s : Vec Ideal S1x1 .f32)
    (a : Cert.Spec.RowsBy512.Idx → EReal) (b : Cert.Spec.RowsBy64.Idx → EReal)
    (hg : ∀ j, g j = Cert.Spec.proj a b j) (hs : ∀ j, s j = Cert.Spec.sumSq a) (i : S_.Idx) :
    tail (F := Ideal) g s i = Cert.Spec.loss a b := by
  have e1 : (shapeCast S_ s shapeCasts_S1x1_S_) i = Cert.Spec.sumSq a := hs _
  have e2 : Host.reduceAdd (F := Ideal) (mulf g g : FVec Ideal S64x512 .f32) (constant (F := Ideal) S_ .f32 0x00000000#32)
        reducesTo_S64x512_S_d0_1 h_S_ i
      = Ideal.ofBits .f32 0x00000000#32 + ∑ j : S64x512.Idx, Cert.Spec.proj a b j * Cert.Spec.proj a b j := by
    simp only [Host.reduceAdd, Ideal.hostReduceAdd_def]
    refine (Ideal.hostReduceAdd_total reducesTo_S64x512_S_d0_1 (fun b => b.elim0) _ _ i).trans ?_
    exact congrArg (Ideal.ofBits .f32 0x00000000#32 + ·) (Finset.sum_congr rfl fun j _ => by
      show g j * g j = _
      rw [hg j])
  show (shapeCast S_ s shapeCasts_S1x1_S_) i
      - Host.reduceAdd (F := Ideal) (mulf g g : FVec Ideal S64x512 .f32) (constant (F := Ideal) S_ .f32 0x00000000#32)
          reducesTo_S64x512_S_d0_1 h_S_ i = _
  rw [e1, e2]
  rfl

variable (m : (ℓ : Loc nD τ sig) → Buf (Elt Ideal) ℓ)

/-- The kernel's result. -/
theorem result_eq (c : Dev nD) (i : S_.Idx) :
    tail (F := Ideal) (projArr m c) (sqArr m c) i = Cert.Spec.loss (hArr m c) (fArr m c) :=
  tail_of_totals (projArr m c) (sqArr m c) (hArr m c) (fArr m c) (acc_proj_last m c) (acc_sq_last m c) i

end Cert.KernelIdeal.Run

end
-- ==== Proof.RefValue.lean ====
/-
  The reference's result, entry by entry at the ideal instance, is the sum of squares of h minus the sum of the
  squared entries of the projection Fᵀ·h.
  The reference squares h and sums it from the zero word; it transposes F, contracts the transposed array's column
  axis with the row axis of h, squares that product entry by entry, sums it from the zero word, and subtracts. At
  entry (k, d) the product is ∑ₙ F[n, k]·h[n, d], the transposed array read at (k, n) being F at (n, k).
-/
import proofs.«143955_j67181878444634_1_alg».proof.Defs
import proofs.«143955_j67181878444634_1_alg».proof.Proof.Gen.ReferenceIdeal.Run
import proofs.«143955_j67181878444634_1_alg».proof.Proof.Gen.ReferenceIdeal.Read
import proofs.«143955_j67181878444634_1_alg».proof.Proof.Spec

noncomputable section

open scoped BigOperators
open Idealize.ShloMosaic Idealize.ShloMosaic.ValueIdx

namespace Cert.ReferenceIdeal.RefValue

open Cert.ReferenceIdeal Cert.ReferenceIdeal.Read

/-- The transposed F read where the product's left operand is read, at (k, n), is F at (n, k). -/
theorem left_index (j : S64x512.Idx) (n : Fin 65536) : idx_main_v2 (lidx_main_v3 j n) = ix2 n (j 0) :=
  funext fun a => Fin.ext (by match a with | ⟨0, _⟩ => rfl | ⟨1, _⟩ => rfl)

/-- The product's right operand h is read at (n, d). -/
theorem right_index (j : S64x512.Idx) (n : Fin 65536) : ridx_main_v3 j n = ix2 n (j 1) :=
  funext fun a => Fin.ext (by match a with | ⟨0, _⟩ => rfl | ⟨1, _⟩ => rfl)

/-- The reference's matrix product is the projection Fᵀ·h. -/
theorem product_eq (x0 : S65536x512.Idx → EReal) (x1 : S65536x64.Idx → EReal) (j : S64x512.Idx) :
    val_main_v3 (F := Ideal) x0 x1 j = Cert.Spec.proj x0 x1 j := by
  rw [val_main_v3_apply]
  unfold Cert.Spec.proj
  refine Finset.sum_congr rfl fun n _ => ?_
  rw [val_main_v2_apply, left_index, right_index]
  rfl

/-- The reference's first sum is the sum of squares of h. -/
theorem squares_eq (x0 : S65536x512.Idx → EReal) (i : S_.Idx) :
    val_main_v1 (F := Ideal) x0 i = Cert.Spec.sumSq x0 := by
  rw [val_main_v1_apply]
  show Ideal.ofBits .f32 0x00000000#32 + ∑ j : S65536x512.Idx, x0 j * x0 j = _
  rw [Ideal.ofBits_zero_f32, zero_add, sum_idx2]
  rfl

/-- The reference's second sum is the zero word plus the sum of the squared projection entries. -/
theorem projected_eq (x0 : S65536x512.Idx → EReal) (x1 : S65536x64.Idx → EReal) (i : S_.Idx) :
    val_main_v5 (F := Ideal) x0 x1 i
      = Ideal.ofBits .f32 0x00000000#32 + ∑ j : S64x512.Idx, Cert.Spec.proj x0 x1 j * Cert.Spec.proj x0 x1 j := by
  rw [val_main_v5_apply]
  show Ideal.ofBits .f32 0x00000000#32 + ∑ j : S64x512.Idx, val_main_v3 (F := Ideal) x0 x1 j * val_main_v3 (F := Ideal) x0 x1 j = _
  exact congrArg (Ideal.ofBits .f32 0x00000000#32 + ·) (Finset.sum_congr rfl fun j _ => by rw [product_eq])

/-- The reference's result. -/
theorem result_eq (x0 : S65536x512.Idx → EReal) (x1 : S65536x64.Idx → EReal) (i : S_.Idx) :
    val_main_v6 (F := Ideal) x0 x1 i = Cert.Spec.loss x0 x1 := by
  rw [val_main_v6_apply, squares_eq, projected_eq]
  rfl

end Cert.ReferenceIdeal.RefValue

end
-- ==== Proof.lean ====
/-
  The certificate's claims.
  The kernel streams h (65536 x 512) and F (65536 x 64) once, in 32 tiles of 2048 rows, keeping two running totals in
  its output blocks: the projection Fᵀ·h (64 x 512) and the sum of squares of h. After the region the host
  subtracts the sum of the squared projection entries from the sum of squares. The reference computes the same two
  quantities whole: the sum of h squared, and Fᵀ·h by one matrix product. Over the extended reals the two results are
  one number, because a sum over all 65536 rows is the sum over the 32 tiles of each tile's sum over its 2048 rows:
  addition there is commutative and associative, and no other law is used, so the precondition is never opened.
  The three frames: the kernel's at the word level and at the ideal instance are the generated frame runs; the
  reference's is its generated run with the result dropped. The ideal pass rewrote nothing, so the idealization
  claim is trivially true.
-/
import proofs.«143955_j67181878444634_1_alg».proof.Defs
import proofs.«143955_j67181878444634_1_alg».proof.Proof.Gen.Kernel
import proofs.«143955_j67181878444634_1_alg».proof.Proof.Gen.Kernel.Skeleton
import proofs.«143955_j67181878444634_1_alg».proof.Proof.Gen.Kernel.Launch
import proofs.«143955_j67181878444634_1_alg».proof.Proof.Gen.Kernel.Points
import proofs.«143955_j67181878444634_1_alg».proof.Proof.Gen.Kernel.Frame
import proofs.«143955_j67181878444634_1_alg».proof.Proof.Gen.KernelIdeal
import proofs.«143955_j67181878444634_1_alg».proof.Proof.Gen.KernelIdeal.Skeleton
import proofs.«143955_j67181878444634_1_alg».proof.Proof.Gen.KernelIdeal.Launch
import proofs.«143955_j67181878444634_1_alg».proof.Proof.Gen.KernelIdeal.Points
import proofs.«143955_j67181878444634_1_alg».proof.Proof.Gen.KernelIdeal.Frame
import proofs.«143955_j67181878444634_1_alg».proof.Proof.Gen.ReferenceIdeal
import proofs.«143955_j67181878444634_1_alg».proof.Proof.Gen.Pre_finite_inputs
import proofs.«143955_j67181878444634_1_alg».proof.Proof.KernelValue
import proofs.«143955_j67181878444634_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the sum of squares of h minus the sum of the squared entries of Fᵀ·h, of arguments that
    agree. -/
theorem algebraic : Cert.algebraic_KernelIdeal_ReferenceIdeal := by
  intro m ρ m' ρ' _ hagree
  refine ⟨fun c _ => Cert.Spec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (funext fun i => Cert.KernelIdeal.Run.result_eq m c i), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v6_eq]
    funext i
    rw [Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
